-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S256x128 : Shape := ⟨2, ![256, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S256x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S131072x128 .f32) (main_arg1 : FVec F S131072x128 .f32) (main_arg2 : FVec F S256x128 .f32) (main_arg3 : FVec F S128 .f32) (main_arg4 : FVec F S256x128 .f32) (main_arg5 : FVec F S128 .f32) (main_arg6 : FVec F S256x128 .f32) (main_arg7 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S131072x128 : Shape := ⟨2, ![131072, 128]⟩
abbrev S256x128 : Shape := ⟨2, ![256, 128]⟩
abbrev S128 : Shape := ⟨1, ![128]⟩
abbrev S128x128 : Shape := ⟨2, ![128, 128]⟩
abbrev S2048x128 : Shape := ⟨2, ![2048, 128]⟩
abbrev S1x128 : Shape := ⟨2, ![1, 128]⟩

abbrev nBuf : Space → Nat
  | .hbm => 15
  | .vmem => 15
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S2048x128, .f32⟩
  | .local _ .vmem, ⟨14, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S256x128_S128x128_0_0 : S256x128.Slices ![0, 0] S128x128
  slices_S256x128_S128x128_128_0 : S256x128.Slices ![128, 0] S128x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S131072x128.size a
  hwx0_11 : ∀ i : grid0.Coords, EltTy.bits .f32 = 32 ∨ (Rect.block (s := S131072x128) S2048x128.size (cc0_transform_11 i) (hinb0_11 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x128 : Shape := ⟨2, ![131072, 128]⟩
abbrev S256x128 : Shape := ⟨2, ![256, 128]⟩
abbrev S128 : Shape := ⟨1, ![128]⟩
abbrev S131072x256 : Shape := ⟨2, ![131072, 256]⟩
abbrev S1x128 : Shape := ⟨2, ![1, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S131072x256, .f32⟩
  | .hbm, ⟨9, _⟩ => ⟨S131072x128, .f32⟩
  | .hbm, ⟨10, _⟩ => ⟨S1x128, .f32⟩
  | .hbm, ⟨11, _⟩ => ⟨S131072x128, .f32⟩
  | .hbm, ⟨12, _⟩ => ⟨S131072x128, .f32⟩
  | .hbm, ⟨13, _⟩ => ⟨S131072x128, .f32⟩
  | .hbm, ⟨14, _⟩ => ⟨S131072x128, .f32⟩
  | .hbm, ⟨15, _⟩ => ⟨S_, .f32⟩
  | .hbm, ⟨16, _⟩ => ⟨S131072x128, .f32⟩
  | .hbm, ⟨17, _⟩ => ⟨S131072x128, .f32⟩
  | .hbm, ⟨18, _⟩ => ⟨S_, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S1x128, .f32⟩
  | .hbm, ⟨23, _⟩ => ⟨S131072x128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S131072x256, .f32⟩
  | .hbm, ⟨35, _⟩ => ⟨S131072x128, .f32⟩
  | .hbm, ⟨36, _⟩ => ⟨S1x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  dot_S131072x256_S256x128_S131072x128_1_0_0_1_n_n_wf : DotDims.WF S131072x256 S256x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf

class Facts : Prop extends Facts₀ where

variable [Facts]
-- ==== Proof.GruSpec.lean ====
/-
  The gated recurrent cell as ONE function of its eight argument arrays, entry by entry, on the extended reals.

  For a row `r` and a unit `j`, a gate's pre-activation is the inner product of the joined row `[u r, x r]`
  (256 entries: first the 128 of `u`, then the 128 of `x`) with column `j` of a 256 x 128 weight, plus the bias:

      pre W b u x r j = (sum over k < 128 of u r k * W k j) + (sum over k < 128 of x r k * W (128 + k) j) + b j.

  With `sigma t = 1 / (1 + exp (-t))`:

      z  = sigma (pre W_z b_z s x)            the update gate
      rr = sigma (pre W_r b_r s x)            the reset gate
      h  = tanh  (pre W_s b_s (rr * s) x)     the candidate state, over the reset state
      out = (1 - z) * s + z * h.

  The one law used between the two programs is that a sum over 256 indices is the sum over the first 128 plus
  the sum over the last 128. It is a fact about a commutative monoid, so it holds on the extended reals with
  no finiteness assumption: nothing here is cancelled, distributed or moved across a sum.
-/
import Idealize.ShloMosaic.PureOps.Ideal
import Idealize.ShloMosaic.Lib.ValueIdx
import Mathlib.Algebra.BigOperators.Fin

noncomputable section

namespace Cert.Gru

open Idealize.ShloMosaic Idealize.ShloMosaic.ValueIdx

/-- A batch of rows of 128 entries. -/
abbrev Rows : Shape := ⟨2, ![131072, 128]⟩
/-- A joined weight: 256 input rows by 128 units. -/
abbrev Weight : Shape := ⟨2, ![256, 128]⟩
/-- A bias, one entry per unit. -/
abbrev Bias : Shape := ⟨1, ![128]⟩

/-- Row `k` of the first half of a joined weight. -/
abbrev lo (k : Fin 128) : Fin 256 := ⟨k.val, by omega⟩
/-- Row `k` of the second half of a joined weight. -/
abbrev hi (k : Fin 128) : Fin 256 := ⟨128 + k.val, by omega⟩

/-- A sum over 256 indices is the sum over the first 128 plus the sum over the last 128, in any additive
    commutative monoid. -/
theorem sum_split {M : Type} [AddCommMonoid M] (f : Fin 256 → M) :
    ∑ k : Fin 256, f k = ∑ k : Fin 128, f (lo k) + ∑ k : Fin 128, f (hi k) := by
  exact Fin.sum_univ_add (a := 128) (b := 128) (fun k : Fin (128 + 128) => f k)

/-- The single-precision word of 1.0 denotes the extended real 1: sign 0, biased exponent 127, mantissa 0. It is
    the only literal either program spells besides zero, and the logistic function is defined with the numeral. -/
theorem one_word : Ideal.ofBits .f32 0x3F800000#32 = 1 := by
  simp [Ideal.ofBits, Ideal.ieee, -EReal.coe_mul]; norm_num

/-- A gate's pre-activation at row `r`, unit `j`: the first operand against the first 128 weight rows, the
    second against the last 128, and the bias. -/
def pre (W : Weight.Idx → EReal) (b : Bias.Idx → EReal) (u x : Rows.Idx → EReal) (r : Fin 131072) (j : Fin 128) : EReal :=
  (∑ k : Fin 128, u (ix2 r k) * W (ix2 (lo k) j) + ∑ k : Fin 128, x (ix2 r k) * W (ix2 (hi k) j)) + b (ix1 j)

/-- The cell's new state at row `r`, unit `j`. -/
def cell (x s : Rows.Idx → EReal) (Wz : Weight.Idx → EReal) (bz : Bias.Idx → EReal)
    (Wr : Weight.Idx → EReal) (br : Bias.Idx → EReal) (Ws : Weight.Idx → EReal) (bs : Bias.Idx → EReal)
    (r : Fin 131072) (j : Fin 128) : EReal :=
  let z := Ideal.logistic (pre Wz bz s x r j)
  let rs : Rows.Idx → EReal := fun i => Ideal.logistic (pre Wr br s x (i 0) (i 1)) * s i
  let h := Ideal.tanh (pre Ws bs rs x r j)
  (1 - z) * s (ix2 r j) + z * h

end Cert.Gru

end
-- ==== Proof.RefJoined.lean ====
/-
  The joined row. The reference lays two batches of rows side by side, `[u, v]` with 256 columns, before each of its
  three products with a 256 x 128 weight. Column `k < 128` of the joined row is column `k` of `u`; column
  `128 + k` is column `k` of `v`.
-/
import proofs.«145026_j20203526160650_1_alg».proof.Proof.Gen.ReferenceIdeal
import proofs.«145026_j20203526160650_1_alg».proof.Proof.GruSpec
import Idealize.ShloMosaic.Lib.Pipeline.Value

noncomputable section

namespace Cert.Gru.Reference

open Cert.ReferenceIdeal Cert.ReferenceIdeal.Gen Idealize.ShloMosaic Idealize.ShloMosaic.ValueIdx Cert.Gru

/-- The joined array of two batches of rows, as the reference prints it. -/
abbrev joined (u v : S131072x128.Idx → EReal) : S131072x256.Idx → EReal :=
  concatenate S131072x256 1 [⟨S131072x128, u⟩, ⟨S131072x128, v⟩] concatenates_S131072x128_S131072x128_S131072x256_d1

/-- At a column below 128 the joined row reads its first part at the same row and column. -/
theorem joined_lo (u v : S131072x128.Idx → EReal) (j : S131072x256.Idx) (r : Fin 131072) (k : Fin 128)
    (h0 : (j 0).val = r.val) (h1 : (j 1).val = k.val) : joined u v j = u (ix2 r k) :=
  concatenate_pair_apply_left (1 : Fin S131072x256.rank) u v concatenates_S131072x128_S131072x128_S131072x256_d1 j rfl
    (ix2 r k) (fun b => match b with
      | ⟨0, _⟩ => h0.symm
      | ⟨1, _⟩ => h1.symm)

/-- At column `128 + k` the joined row reads its second part at the same row, column `k`. -/
theorem joined_hi (u v : S131072x128.Idx → EReal) (j : S131072x256.Idx) (r : Fin 131072) (k : Fin 128)
    (h0 : (j 0).val = r.val) (h1 : (j 1).val = 128 + k.val) : joined u v j = v (ix2 r k) :=
  concatenate_pair_apply_right (1 : Fin S131072x256.rank) u v concatenates_S131072x128_S131072x128_S131072x256_d1 j rfl rfl
    (ix2 r k) (fun b => match b with
      | ⟨0, _⟩ => fun _ => h0.symm
      | ⟨1, _⟩ => fun hne => absurd rfl hne)
    (by show k.val + 128 = (j 1).val; omega)

end Cert.Gru.Reference

end
-- ==== Proof.RefIsCell.lean ====
/-
  The reference computes `cell`. Entry by entry, its 38 host operations are: the joined row `[s, x]` against each of
  W_z and W_r plus the bias, through the sigmoid spelled as `1 / (1 + exp (-t))`; the joined row `[rr * s, x]` against
  W_s plus the bias, through tanh; and the blend `(1 - z) * s + z * h`.

  Two facts carry it. A sum over the 256 joined columns is the sum over the first 128 (the columns of the first part)
  plus the sum over the last 128 (the columns of the second part): this turns each product with a 256 x 128 weight
  into `pre`. And the spelled-out sigmoid is the logistic function, because the word 1.0 denotes 1.
-/
import proofs.«145026_j20203526160650_1_alg».proof.Proof.ReferenceRead
import proofs.«145026_j20203526160650_1_alg».proof.Proof.RefJoined

noncomputable section

namespace Cert.Gru.Reference

open Cert.ReferenceIdeal Cert.ReferenceIdeal.Gen Cert.ReferenceIdeal.ReadPatched
open Idealize.ShloMosaic Idealize.ShloMosaic.ValueIdx Cert.Gru

/-- The host's sigmoid, `1.0 / (1.0 + exp (-t))`, is the logistic function on every extended real. -/
theorem host_sigmoid (t : Ideal .f32) :
    FloatOps.hostDivf (F := Ideal) (FloatOps.ofBits .f32 0x3F800000#32)
      (FloatOps.addf (FloatOps.ofBits .f32 0x3F800000#32) (FloatOps.hostUnary .exp (FloatOps.hostNegf t)))
    = Ideal.logistic t := by
  simp only [Ideal.hostDivf_def, Ideal.addf_def, Ideal.hostUnary_exp_def, Ideal.hostNegf_def, Ideal.negf_def,
    Ideal.ofBits_def, one_word, Ideal.logistic]

/-- A joined row `[u, v]` against a 256 x 128 weight, plus the bias of the unit, is `pre`: the 256 terms split into
    the 128 that meet `u` and the 128 that meet `v`. Stated over any index functions with the right coordinates. -/
theorem gate_eq (u v : S131072x128.Idx → EReal) (W : S256x128.Idx → EReal) (b : S128.Idx → EReal)
    (i : S131072x128.Idx) (li : Fin 256 → S131072x256.Idx) (ri : Fin 256 → S256x128.Idx) (bi : S128.Idx)
    (hl0 : ∀ k, (li k 0).val = (i 0).val) (hl1 : ∀ k, (li k 1).val = k.val)
    (hr0 : ∀ k, (ri k 0).val = k.val) (hr1 : ∀ k, (ri k 1).val = (i 1).val) (hb : (bi 0).val = (i 1).val) :
    (∑ k : Fin 256, joined u v (li k) * W (ri k)) + b bi = pre W b u v (i 0) (i 1) := by
  have hW : ∀ k : Fin 256, ri k = ix2 k (i 1) := fun k => funext fun a => Fin.ext (by
    match a with
    | ⟨0, _⟩ => exact hr0 k
    | ⟨1, _⟩ => exact hr1 k)
  have hbi : bi = ix1 (i 1) := funext fun a => Fin.ext (by
    match a with
    | ⟨0, _⟩ => exact hb)
  unfold pre
  rw [sum_split, hbi]
  refine congrArg₂ (· + ·) (congrArg₂ (· + ·) ?_ ?_) rfl
  · exact Finset.sum_congr rfl fun k _ => by
      rw [joined_lo u v (li (lo k)) (i 0) k (hl0 _) (hl1 _), hW]
      rfl
  · exact Finset.sum_congr rfl fun k _ => by
      rw [joined_hi u v (li (hi k)) (i 0) k (hl0 _) (hl1 _), hW]
      rfl

variable (x0 x1 : S131072x128.Idx → EReal) (x2 : S256x128.Idx → EReal) (x3 : S128.Idx → EReal)
  (x4 : S256x128.Idx → EReal) (x5 : S128.Idx → EReal) (x6 : S256x128.Idx → EReal) (x7 : S128.Idx → EReal)

/-- The update gate: the sigmoid of `[s, x]` against W_z plus b_z. -/
theorem update_gate (i : S131072x128.Idx) :
    val_main_v10 (F := Ideal) x0 x1 x2 x3 i = Ideal.logistic (pre x2 x3 x1 x0 (i 0) (i 1)) := by
  rw [val_main_v10_apply, val_main_v9_apply, val_main_cst_0_apply, val_main_v8_apply, val_main_v7_apply,
    val_main_cst_apply, val_main_v6_apply, val_main_v5_apply, val_main_v4_apply, val_main_v3_apply,
    val_main_v2_apply, val_main_v1_apply, host_sigmoid]
  exact congrArg Ideal.logistic
    (gate_eq x1 x0 x2 x3 i _ _ _ (fun _ => rfl) (fun _ => rfl) (fun _ => rfl) (fun _ => rfl) rfl)

/-- The reset gate: the sigmoid of `[s, x]` against W_r plus b_r. -/
theorem reset_gate (i : S131072x128.Idx) :
    val_main_v20 (F := Ideal) x0 x1 x4 x5 i = Ideal.logistic (pre x4 x5 x1 x0 (i 0) (i 1)) := by
  rw [val_main_v20_apply, val_main_v19_apply, val_main_cst_2_apply, val_main_v18_apply, val_main_v17_apply,
    val_main_cst_1_apply, val_main_v16_apply, val_main_v15_apply, val_main_v14_apply, val_main_v13_apply,
    val_main_v12_apply, val_main_v11_apply, host_sigmoid]
  exact congrArg Ideal.logistic
    (gate_eq x1 x0 x4 x5 i _ _ _ (fun _ => rfl) (fun _ => rfl) (fun _ => rfl) (fun _ => rfl) rfl)

/-- The reset state, as a whole array: the reset gate times the previous state. -/
theorem reset_state :
    val_main_v21 (F := Ideal) x0 x1 x4 x5 = fun i => Ideal.logistic (pre x4 x5 x1 x0 (i 0) (i 1)) * x1 i := by
  funext i
  rw [val_main_v21_apply, reset_gate, Ideal.mulf_def]

/-- The candidate state: tanh of `[rr * s, x]` against W_s plus b_s. -/
theorem candidate (i : S131072x128.Idx) :
    val_main_v27 (F := Ideal) x0 x1 x4 x5 x6 x7 i
      = Ideal.tanh (pre x6 x7 (fun i => Ideal.logistic (pre x4 x5 x1 x0 (i 0) (i 1)) * x1 i) x0 (i 0) (i 1)) := by
  rw [val_main_v27_apply, val_main_v26_apply, val_main_v25_apply, val_main_v24_apply, val_main_v23_apply,
    Ideal.hostUnary_tanh_def, Ideal.addf_def]
  refine congrArg Ideal.tanh ?_
  have e : val_main_v22 (F := Ideal) x0 x1 x4 x5
      = joined (fun i => Ideal.logistic (pre x4 x5 x1 x0 (i 0) (i 1)) * x1 i) x0 := by
    unfold val_main_v22; rw [reset_state]
  rw [e]
  exact gate_eq _ x0 x6 x7 i _ _ _ (fun _ => rfl) (fun _ => rfl) (fun _ => rfl) (fun _ => rfl) rfl

/-- The reference's result array is `cell` of its arguments, entry by entry. -/
theorem result_is_cell :
    val_main_v32 (F := Ideal) x0 x1 x2 x3 x4 x5 x6 x7 = fun i => cell x0 x1 x2 x3 x4 x5 x6 x7 (i 0) (i 1) := by
  funext i
  rw [val_main_v32_apply, val_main_v30_apply, val_main_v29_apply, val_main_v28_apply, val_main_cst_3_apply,
    val_main_v31_apply, update_gate, candidate]
  simp only [Ideal.addf_def, Ideal.mulf_def, Ideal.subf_def, Ideal.ofBits_def, one_word, cell]
  congr 2
  exact congrArg x1 (eq_ix2 i)

end Cert.Gru.Reference

end
-- ==== Proof.KernelBlocks.lean ====
/-
  The arrays the region finds, and their blocks.

  Before the region the host cuts each 256 x 128 weight into its first 128 rows and its last 128 rows. Entry (k, j) of
  the first half is entry (k, j) of the weight; entry (k, j) of the second half is entry (128 + k, j).
-/
import proofs.«145026_j20203526160650_1_alg».proof.Proof.Gen.KernelIdeal.Frame
import proofs.«145026_j20203526160650_1_alg».proof.Proof.GruSpec
import Idealize.ShloMosaic.Lib.StableHlo.Run
import Idealize.ShloMosaic.Lib.ValueLayout

noncomputable section

namespace Cert.Gru.Kernel

open Cert.KernelIdeal Cert.KernelIdeal.Gen Idealize.ShloMosaic Idealize.ShloMosaic.TcCoe Idealize.ShloMosaic.ValueIdx
open Idealize.ShloMosaic.StableHlo Idealize.SL.Sem Cert.Gru

variable (m : (ℓ : Loc nD τ sig) → Buf (Elt Ideal) ℓ)

/-- The first 128 rows of a joined weight, at an entry. -/
theorem first_half (W : S256x128.Idx → EReal) (k j : Fin 128) :
    extractStridedSlice S128x128 ![0, 0] W slices_S256x128_S128x128_0_0 (ix2 k j) = W (ix2 (lo k) j) :=
  slice2_axis0_apply 0 W slices_S256x128_S128x128_0_0 k j (lo k) (Nat.zero_add _).symm

/-- The last 128 rows of a joined weight, at an entry. -/
theorem second_half (W : S256x128.Idx → EReal) (k j : Fin 128) :
    extractStridedSlice S128x128 ![128, 0] W slices_S256x128_S128x128_128_0 (ix2 k j) = W (ix2 (hi k) j) :=
  slice2_axis0_apply 128 W slices_S256x128_S128x128_128_0 k j (hi k) rfl

/-! What each cut holds when the region is entered: the host operations in front of it, read back. -/

theorem V_v0 (c : Dev nD) : (V m c main_v0 : S128x128.Idx → EReal)
    = extractStridedSlice S128x128 ![0, 0] (m ((c : Thread nD τ).loc main_arg2)) slices_S256x128_S128x128_0_0 := by
  dsimp only [Gen.V, Gen.hostOps0]; after_results

theorem V_v1 (c : Dev nD) : (V m c main_v1 : S128x128.Idx → EReal)
    = extractStridedSlice S128x128 ![128, 0] (m ((c : Thread nD τ).loc main_arg2)) slices_S256x128_S128x128_128_0 := by
  dsimp only [Gen.V, Gen.hostOps0]; after_results

theorem V_v2 (c : Dev nD) : (V m c main_v2 : S128x128.Idx → EReal)
    = extractStridedSlice S128x128 ![0, 0] (m ((c : Thread nD τ).loc main_arg4)) slices_S256x128_S128x128_0_0 := by
  dsimp only [Gen.V, Gen.hostOps0]; after_results

theorem V_v3 (c : Dev nD) : (V m c main_v3 : S128x128.Idx → EReal)
    = extractStridedSlice S128x128 ![128, 0] (m ((c : Thread nD τ).loc main_arg4)) slices_S256x128_S128x128_128_0 := by
  dsimp only [Gen.V, Gen.hostOps0]; after_results

theorem V_v4 (c : Dev nD) : (V m c main_v4 : S128x128.Idx → EReal)
    = extractStridedSlice S128x128 ![0, 0] (m ((c : Thread nD τ).loc main_arg6)) slices_S256x128_S128x128_0_0 := by
  dsimp only [Gen.V, Gen.hostOps0]; after_results

theorem V_v5 (c : Dev nD) : (V m c main_v5 : S128x128.Idx → EReal)
    = extractStridedSlice S128x128 ![128, 0] (m ((c : Thread nD τ).loc main_arg6)) slices_S256x128_S128x128_128_0 := by
  dsimp only [Gen.V, Gen.hostOps0]; after_results

/-! ## The blocks

  The grid has 64 points. Point t's block of the input, of the previous state and of the output is rows
  2048 t .. 2048 t + 2047; every point sees the whole of each weight half and of each bias. -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 64 points: the row windows sit at block (t, 0), the others at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0 ∧ win0_9.index t (0 : Fin 1) = 0 ∧ win0_10.index t (0 : Fin 1) = 0 :=
  (by decide +kernel : ∀ t : Fin grid0.N, _)

/-- The row of the array that row p of point t's block is. -/
abbrev rowAt (t : Fin cfg0.N) (p : Fin 2048) : Fin 131072 :=
  ⟨t.val * 2048 + p.val, by have ht : t.val < 64 := t.isLt; have hp := p.isLt; omega⟩

/-- Point t's blocks, named at their literal types. -/
abbrev xB (c : Dev nD) (t : Fin cfg0.N) : Vec Ideal S2048x128 .f32 := iblk m c 0 t
abbrev sB (c : Dev nD) (t : Fin cfg0.N) : Vec Ideal S2048x128 .f32 := iblk m c 1 t
abbrev wB (c : Dev nD) (t : Fin cfg0.N) (w : Fin 6) : Vec Ideal S128x128 .f32 :=
  match w with
  | 0 => iblk m c 2 t | 1 => iblk m c 3 t | 2 => iblk m c 4 t | 3 => iblk m c 5 t | 4 => iblk m c 6 t | 5 => iblk m c 7 t
abbrev bB (c : Dev nD) (t : Fin cfg0.N) (w : Fin 3) : Vec Ideal S128 .f32 :=
  match w with
  | 0 => iblk m c 8 t | 1 => iblk m c 9 t | 2 => iblk m c 10 t

/-- Row p of point t's input block is row 2048 t + p of the input. -/
theorem x_block (c : Dev nD) (t : Fin cfg0.N) (p : Fin 2048) (k : Fin 128) :
    xB m c t (ix2 p k) = m ((c : Thread nD τ).loc main_arg0) (ix2 (rowAt t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * k.val = k.val; omega

/-- Row p of point t's previous-state block is row 2048 t + p of the previous state. -/
theorem s_block (c : Dev nD) (t : Fin cfg0.N) (p : Fin 2048) (k : Fin 128) :
    sB m c t (ix2 p k) = m ((c : Thread nD τ).loc main_arg1) (ix2 (rowAt t p) k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * k.val = k.val; omega

/-! Every point sees the whole of each weight half, which is a cut of the joined weight, and of each bias. -/

/-- The update gate's weight half that meets the state: rows 0 .. 127 of W_z. -/
theorem wz_state_block (c : Dev nD) (t : Fin cfg0.N) (k j : Fin 128) :
    wB m c t 0 (ix2 k j) = m ((c : Thread nD τ).loc main_arg2) (ix2 (lo k) j) := by
  have h := idx_facts t
  show V m c main_v0 (((cfg0.win 2).blk t).view.emb (ix2 k j)) = _
  have hemb : ((cfg0.win 2).blk t).view.emb (ix2 k j) = ix2 k j := funext fun a => Fin.ext (by
    match a with
    | ⟨0, _⟩ => show win0_2.index t (0 : Fin 2) * 128 + 1 * k.val = k.val; omega
    | ⟨1, _⟩ => show win0_2.index t (1 : Fin 2) * 128 + 1 * j.val = j.val; omega)
  rw [hemb, V_v0, first_half]

/-- The update gate's weight half that meets the input: rows 128 .. 255 of W_z. -/
theorem wz_input_block (c : Dev nD) (t : Fin cfg0.N) (k j : Fin 128) :
    wB m c t 1 (ix2 k j) = m ((c : Thread nD τ).loc main_arg2) (ix2 (hi k) j) := by
  have h := idx_facts t
  show V m c main_v1 (((cfg0.win 3).blk t).view.emb (ix2 k j)) = _
  have hemb : ((cfg0.win 3).blk t).view.emb (ix2 k j) = ix2 k j := funext fun a => Fin.ext (by
    match a with
    | ⟨0, _⟩ => show win0_3.index t (0 : Fin 2) * 128 + 1 * k.val = k.val; omega
    | ⟨1, _⟩ => show win0_3.index t (1 : Fin 2) * 128 + 1 * j.val = j.val; omega)
  rw [hemb, V_v1, second_half]

/-- The reset gate's weight half that meets the state: rows 0 .. 127 of W_r. -/
theorem wr_state_block (c : Dev nD) (t : Fin cfg0.N) (k j : Fin 128) :
    wB m c t 2 (ix2 k j) = m ((c : Thread nD τ).loc main_arg4) (ix2 (lo k) j) := by
  have h := idx_facts t
  show V m c main_v2 (((cfg0.win 4).blk t).view.emb (ix2 k j)) = _
  have hemb : ((cfg0.win 4).blk t).view.emb (ix2 k j) = ix2 k j := funext fun a => Fin.ext (by
    match a with
    | ⟨0, _⟩ => show win0_4.index t (0 : Fin 2) * 128 + 1 * k.val = k.val; omega
    | ⟨1, _⟩ => show win0_4.index t (1 : Fin 2) * 128 + 1 * j.val = j.val; omega)
  rw [hemb, V_v2, first_half]

/-- The reset gate's weight half that meets the input: rows 128 .. 255 of W_r. -/
theorem wr_input_block (c : Dev nD) (t : Fin cfg0.N) (k j : Fin 128) :
    wB m c t 3 (ix2 k j) = m ((c : Thread nD τ).loc main_arg4) (ix2 (hi k) j) := by
  have h := idx_facts t
  show V m c main_v3 (((cfg0.win 5).blk t).view.emb (ix2 k j)) = _
  have hemb : ((cfg0.win 5).blk t).view.emb (ix2 k j) = ix2 k j := funext fun a => Fin.ext (by
    match a with
    | ⟨0, _⟩ => show win0_5.index t (0 : Fin 2) * 128 + 1 * k.val = k.val; omega
    | ⟨1, _⟩ => show win0_5.index t (1 : Fin 2) * 128 + 1 * j.val = j.val; omega)
  rw [hemb, V_v3, second_half]

/-- The candidate's weight half that meets the reset state: rows 0 .. 127 of W_s. -/
theorem ws_state_block (c : Dev nD) (t : Fin cfg0.N) (k j : Fin 128) :
    wB m c t 4 (ix2 k j) = m ((c : Thread nD τ).loc main_arg6) (ix2 (lo k) j) := by
  have h := idx_facts t
  show V m c main_v4 (((cfg0.win 6).blk t).view.emb (ix2 k j)) = _
  have hemb : ((cfg0.win 6).blk t).view.emb (ix2 k j) = ix2 k j := funext fun a => Fin.ext (by
    match a with
    | ⟨0, _⟩ => show win0_6.index t (0 : Fin 2) * 128 + 1 * k.val = k.val; omega
    | ⟨1, _⟩ => show win0_6.index t (1 : Fin 2) * 128 + 1 * j.val = j.val; omega)
  rw [hemb, V_v4, first_half]

/-- The candidate's weight half that meets the input: rows 128 .. 255 of W_s. -/
theorem ws_input_block (c : Dev nD) (t : Fin cfg0.N) (k j : Fin 128) :
    wB m c t 5 (ix2 k j) = m ((c : Thread nD τ).loc main_arg6) (ix2 (hi k) j) := by
  have h := idx_facts t
  show V m c main_v5 (((cfg0.win 7).blk t).view.emb (ix2 k j)) = _
  have hemb : ((cfg0.win 7).blk t).view.emb (ix2 k j) = ix2 k j := funext fun a => Fin.ext (by
    match a with
    | ⟨0, _⟩ => show win0_7.index t (0 : Fin 2) * 128 + 1 * k.val = k.val; omega
    | ⟨1, _⟩ => show win0_7.index t (1 : Fin 2) * 128 + 1 * j.val = j.val; omega)
  rw [hemb, V_v5, second_half]

/-- The update gate's bias. -/
theorem bz_block (c : Dev nD) (t : Fin cfg0.N) (j : Fin 128) :
    bB m c t 0 (ix1 j) = m ((c : Thread nD τ).loc main_arg3) (ix1 j) := by
  have h := idx_facts t
  show V m c main_arg3 (((cfg0.win 8).blk t).view.emb (ix1 j)) = _
  rw [V_main_arg3]
  refine congrArg _ (funext fun a => Fin.ext ?_)
  match a with
  | ⟨0, _⟩ => show win0_8.index t (0 : Fin 1) * 128 + 1 * j.val = j.val; omega

/-- The reset gate's bias. -/
theorem br_block (c : Dev nD) (t : Fin cfg0.N) (j : Fin 128) :
    bB m c t 1 (ix1 j) = m ((c : Thread nD τ).loc main_arg5) (ix1 j) := by
  have h := idx_facts t
  show V m c main_arg5 (((cfg0.win 9).blk t).view.emb (ix1 j)) = _
  rw [V_main_arg5]
  refine congrArg _ (funext fun a => Fin.ext ?_)
  match a with
  | ⟨0, _⟩ => show win0_9.index t (0 : Fin 1) * 128 + 1 * j.val = j.val; omega

/-- The candidate's bias. -/
theorem bs_block (c : Dev nD) (t : Fin cfg0.N) (j : Fin 128) :
    bB m c t 2 (ix1 j) = m ((c : Thread nD τ).loc main_arg7) (ix1 j) := by
  have h := idx_facts t
  show V m c main_arg7 (((cfg0.win 10).blk t).view.emb (ix1 j)) = _
  rw [V_main_arg7]
  refine congrArg _ (funext fun a => Fin.ext ?_)
  match a with
  | ⟨0, _⟩ => show win0_10.index t (0 : Fin 1) * 128 + 1 * j.val = j.val; omega

end Cert.Gru.Kernel

end
-- ==== Proof.KernelOps.lean ====
/-
  The kernel body's operations read at one entry of a 2048 x 128 block, on the extended reals.

  A product `l * w` of a 2048 x 128 block with a 128 x 128 weight, accumulated into zero, is at entry (p, j) the sum
  over k < 128 of `l (p, k) * w (k, j)`. A bias of 128 entries, viewed as one row and repeated down the 2048 rows,
  is at (p, j) its entry j. The logistic function and tanh act entry by entry.
-/
import proofs.«145026_j20203526160650_1_alg».proof.Proof.Gen.KernelIdeal.Skeleton
import Idealize.ShloMosaic.PureOps.Ideal.Laws
import Idealize.ShloMosaic.Lib.ValueIdx
import Idealize.ShloMosaic.Lib.ValueLayout

noncomputable section

namespace Cert.Gru.Kernel

open Cert.KernelIdeal Cert.KernelIdeal.Gen Idealize.ShloMosaic Idealize.ShloMosaic.ValueIdx

/-! The four coordinates of the two operand indices of a product's term: the block is read at the output's row and
    the contracted position, the weight at the contracted position and the output's column. -/

theorem lhs_axis0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl

theorem lhs_axis1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q

theorem rhs_axis0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q

theorem rhs_axis1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- A block times a weight, accumulated into zero, at entry (p, j): the sum over the 128 contracted positions. -/
theorem product_entry {φ₁ φ₂ : FTy} (l : FVec Ideal S2048x128 φ₁) (w : FVec Ideal S128x128 φ₂) (p : Fin 2048) (j : Fin 128) :
    matmul dot_S2048x128_S128x128_S2048x128_1_0_0_1_n_n none l w (constant S2048x128 .f32 0x00000000#32) (ix2 p j)
      = ∑ k : Fin 128, l (ix2 p k) * w (ix2 k j) := by
  show FloatOps.matmul dot_S2048x128_S128x128_S2048x128_1_0_0_1_n_n none l w (constant S2048x128 .f32 0x00000000#32) (ix2 p j) = _
  rw [Ideal.matmul_constant_zero_apply,
    ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p j)
      ((ValueIdx.contrEquiv1 dot_S2048x128_S128x128_S2048x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S2048x128_S128x128_S2048x128_1_0_0_1_n_n.rhsIdx (ix2 p j)
      ((ValueIdx.contrEquiv1 dot_S2048x128_S128x128_S2048x128_1_0_0_1_n_n 128 rfl rfl).symm k) = ix2 k j :=
    funext fun a => Fin.ext (by
      match a with
      | ⟨0, _⟩ => exact (rhs_axis0 _ _).trans hk
      | ⟨1, _⟩ => exact rhs_axis1 _ _)
  rw [el, er]

/-- A bias viewed as one row and repeated down the block's rows reads, at (p, j), its entry j. -/
theorem bias_entry (b : S128.Idx → EReal) (p : Fin 2048) (j : Fin 128) :
    broadcastTo S2048x128 (shapeCast S1x128 b shapeCasts_S128_S1x128) broadcasts_S1x128_S2048x128 (ix2 p j) = b (ix1 j) := by
  rw [broadcastTo_1b_ab_apply, shapeCast_a_1a_apply]

/-- The logistic function of a block, at an entry. -/
theorem logistic_entry {s : Shape} {φ : FTy} (a : FVec Ideal s φ) (i : s.Idx) : logistic a i = Ideal.logistic (a i) := rfl

/-- tanh of a block, at an entry. -/
theorem tanh_entry {s : Shape} {φ : FTy} (a : FVec Ideal s φ) (i : s.Idx) : tanh a i = Ideal.tanh (a i) := rfl

end Cert.Gru.Kernel

end
-- ==== Proof.KernelEntry.lean ====
/-
  What the kernel body stores, at one entry of a block.

  A grid point works on 2048 rows. With `x` and `s` the point's blocks of the input and the previous state, and each
  256 x 128 weight given as its two 128 x 128 halves (the half that meets the state, the half that meets the input),
  a gate's pre-activation at row p, unit j of the block is

      preB Wa Wb b u x p j = (sum over k < 128 of u p k * Wa k j) + (sum over k < 128 of x p k * Wb k j) + b j.

  The conversions to the narrower float format in front of each product are the identity on the extended reals, so
  the body stores `(1 - z) * s + z * tanh (preB Wsa Wsb bs (rr * s) x)` with `z` and `rr` the logistic function of the
  update and reset pre-activations.
-/
import proofs.«145026_j20203526160650_1_alg».proof.Proof.KernelOps
import proofs.«145026_j20203526160650_1_alg».proof.Proof.GruSpec
import Idealize.ShloMosaic.Lib.Pipeline.Value

noncomputable section

namespace Cert.Gru.Kernel

open Cert.KernelIdeal Cert.KernelIdeal.Gen Idealize.ShloMosaic Idealize.ShloMosaic.ValueIdx

/-- A gate's pre-activation inside a block: the first operand against the first weight half, the second against the
    second half, and the bias. -/
def preB (Wa Wb : S128x128.Idx → EReal) (b : S128.Idx → EReal) (u x : S2048x128.Idx → EReal) (p : Fin 2048) (j : Fin 128) : EReal :=
  (∑ k : Fin 128, u (ix2 p k) * Wa (ix2 k j) + ∑ k : Fin 128, x (ix2 p k) * Wb (ix2 k j)) + b (ix1 j)

variable (v0 v1 : Vec Ideal S2048x128 .f32) (v4 v7 v10 v13 v16 v19 : Vec Ideal S128x128 .f32)
  (v22 v23 v24 : Vec Ideal S128 .f32)

/-- The update gate's payload at (p, j). -/
theorem update_gate_entry (p : Fin 2048) (j : Fin 128) :
    k0_pay6 (F := Ideal) v0 v1 v4 v7 v22 (ix2 p j) = Ideal.logistic (preB v4 v7 v22 v1 v0 p j) := by
  unfold k0_pay6 k0_pay3 k0_pay2 preB
  dsimp only
  rw [logistic_entry, addf_apply, addf_apply, product_entry, product_entry, bias_entry]
  simp only [truncf_apply, shapeCast_self]

/-- The reset state the third product consumes, as a whole block: the logistic function of the reset pre-activation
    times the previous state. -/
theorem reset_state_block :
    (truncf .bf16 (mulf (logistic (addf (k0_pay7 (F := Ideal) v0 v1 v10 v13)
        (broadcastTo S2048x128 (k0_pay8 (F := Ideal) v23) broadcasts_S1x128_S2048x128))) v1) bitsLt_bf16_f32 : FVec Ideal S2048x128 .bf16)
      = fun i => Ideal.logistic (preB v10 v13 v23 v1 v0 (i 0) (i 1)) * v1 i := by
  funext i
  obtain ⟨p, j, rfl⟩ : ∃ (p : Fin 2048) (j : Fin 128), i = ix2 p j := ⟨i 0, i 1, eq_ix2 i⟩
  unfold k0_pay7 k0_pay8 k0_pay3 k0_pay2 preB
  dsimp only
  rw [truncf_apply, mulf_apply, logistic_entry, addf_apply, addf_apply, product_entry, product_entry, bias_entry]
  simp only [truncf_apply, shapeCast_self]

/-- The stored payload at (p, j): the blend of the previous state and the candidate. -/
theorem payload_entry (p : Fin 2048) (j : Fin 128) :
    k0_pay1 (F := Ideal) v1 (k0_pay2 v0) (k0_pay4 v16) (k0_pay5 v19) v24 (k0_pay6 v0 v1 v4 v7 v22)
        (k0_pay7 v0 v1 v10 v13) (k0_pay8 v23) (ix2 p j)
      = (1 - Ideal.logistic (preB v4 v7 v22 v1 v0 p j)) * v1 (ix2 p j)
        + Ideal.logistic (preB v4 v7 v22 v1 v0 p j)
          * Ideal.tanh (preB v16 v19 v24 (fun i => Ideal.logistic (preB v10 v13 v23 v1 v0 (i 0) (i 1)) * v1 i) v0 p j) := by
  unfold k0_pay1
  rw [reset_state_block v0 v1 v10 v13 v23]
  rw [addf_apply, mulf_apply, mulf_apply, subf_apply, broadcast_apply, tanh_entry, addf_apply, addf_apply,
    product_entry, product_entry, bias_entry, update_gate_entry]
  unfold k0_pay2 k0_pay4 k0_pay5 preB
  simp only [truncf_apply, shapeCast_self, Ideal.ofBits_def, Cert.Gru.one_word]

end Cert.Gru.Kernel

end
-- ==== Proof.KernelArray.lean ====
/-
  From blocks to the array: after the run the kernel's result array is `cell` of the eight argument arrays.

  Point t stores, at entry (p, j) of its output block, the blend computed from its blocks (the entry lemma). Its
  input and state blocks are rows 2048 t + p of the arrays, its weight halves are the first and last 128 rows of the
  joined weights, its biases are the biases; so each block-local pre-activation is `pre` of the arrays at row
  2048 t + p, and the stored entry is `cell` there. The output's 64 blocks of 2048 rows tile the 131072 rows: row r
  lies in the block of point r / 2048. Hence the whole array is `cell`.
-/
import proofs.«145026_j20203526160650_1_alg».proof.Proof.Gen.KernelIdeal.Value
import proofs.«145026_j20203526160650_1_alg».proof.Proof.KernelBlocks
import proofs.«145026_j20203526160650_1_alg».proof.Proof.KernelEntry

noncomputable section

namespace Cert.Gru.Kernel

open Cert.KernelIdeal Cert.KernelIdeal.Gen Cert.KernelIdeal.Value Idealize.ShloMosaic Idealize.ShloMosaic.TcCoe
open Idealize.ShloMosaic.ValueIdx Idealize.SL.Sem Cert.Gru
open Idealize.ShloMosaic.Pipeline (Dat)

variable (m : (ℓ : Loc nD τ sig) → Buf (Elt Ideal) ℓ) (ρ : Dev nD → PrngReg)

/-- The result array: `cell` of the argument arrays as launched, entry by entry. -/
def result (c : Dev nD) : S131072x128.Idx → EReal := fun i =>
  cell (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7)) (i 0) (i 1)

/-- A block-local pre-activation is the arrays' pre-activation at the block's row, once each block entry it reads
    is the corresponding array entry. -/
theorem preB_eq (t : Fin cfg0.N) (p : Fin 2048) (j : Fin 128)
    (Wa Wb : S128x128.Idx → EReal) (b : S128.Idx → EReal) (u x : S2048x128.Idx → EReal)
    (W : S256x128.Idx → EReal) (bb : S128.Idx → EReal) (U X : S131072x128.Idx → EReal)
    (hWa : ∀ k j, Wa (ix2 k j) = W (ix2 (lo k) j)) (hWb : ∀ k j, Wb (ix2 k j) = W (ix2 (hi k) j))
    (hb : ∀ j, b (ix1 j) = bb (ix1 j))
    (hu : ∀ k, u (ix2 p k) = U (ix2 (rowAt t p) k)) (hx : ∀ k, x (ix2 p k) = X (ix2 (rowAt t p) k)) :
    preB Wa Wb b u x p j = pre W bb U X (rowAt t p) j := by
  unfold preB pre
  simp only [hWa, hWb, hb, hu, hx]

/-- What point t writes back is block t of `result`. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  unfold out0_11
  rw [View.canon_unit_zero hz2]
  simp only [View.ld_unit_zero (S := S2048x128) hz2, View.ld_unit_zero (S := S128x128) hz2,
    View.ld_unit_zero (S := S128) hz1]
  funext y
  obtain ⟨p, j, rfl⟩ : ∃ (p : Fin 2048) (j : Fin 128), y = ix2 p j := ⟨y 0, y 1, eq_ix2 y⟩
  show k0_pay1 (sB m c t) (k0_pay2 (xB m c t)) (k0_pay4 (wB m c t 4)) (k0_pay5 (wB m c t 5)) (bB m c t 2)
      (k0_pay6 (xB m c t) (sB m c t) (wB m c t 0) (wB m c t 1) (bB m c t 0))
      (k0_pay7 (xB m c t) (sB m c t) (wB m c t 2) (wB m c t 3)) (k0_pay8 (bB m c t 1)) (ix2 p j)
    = result m c (((cfg0.win 11).blk t).view.emb (ix2 p j))
  have hemb : ((cfg0.win 11).blk t).view.emb (ix2 p j) = ix2 (rowAt t p) j := by
    have h := idx_facts t
    refine funext fun a => Fin.ext ?_
    match a with
    | ⟨0, _⟩ => show win0_11.index t (0 : Fin 2) * 2048 + 1 * p.val = t.val * 2048 + p.val; omega
    | ⟨1, _⟩ => show win0_11.index t (1 : Fin 2) * 128 + 1 * j.val = j.val; omega
  rw [hemb, payload_entry]
  -- the three pre-activations, block-local against the arrays'
  have hz := preB_eq t p j (wB m c t 0) (wB m c t 1) (bB m c t 0) (sB m c t) (xB m c t)
    (m ((c : Thread nD τ).loc main_arg2)) (m ((c : Thread nD τ).loc main_arg3))
    (m ((c : Thread nD τ).loc main_arg1)) (m ((c : Thread nD τ).loc main_arg0))
    (wz_state_block m c t) (wz_input_block m c t) (bz_block m c t) (s_block m c t p) (x_block m c t p)
  have hr : ∀ k : Fin 128, preB (wB m c t 2) (wB m c t 3) (bB m c t 1) (sB m c t) (xB m c t) p k
      = pre (m ((c : Thread nD τ).loc main_arg4)) (m ((c : Thread nD τ).loc main_arg5))
          (m ((c : Thread nD τ).loc main_arg1)) (m ((c : Thread nD τ).loc main_arg0)) (rowAt t p) k := fun k =>
    preB_eq t p k (wB m c t 2) (wB m c t 3) (bB m c t 1) (sB m c t) (xB m c t) _ _ _ _
      (wr_state_block m c t) (wr_input_block m c t) (br_block m c t) (s_block m c t p) (x_block m c t p)
  have hs := preB_eq t p j (wB m c t 4) (wB m c t 5) (bB m c t 2)
    (fun i => Ideal.logistic (preB (wB m c t 2) (wB m c t 3) (bB m c t 1) (sB m c t) (xB m c t) (i 0) (i 1)) * sB m c t i)
    (xB m c t)
    (m ((c : Thread nD τ).loc main_arg6)) (m ((c : Thread nD τ).loc main_arg7))
    (fun i => Ideal.logistic (pre (m ((c : Thread nD τ).loc main_arg4)) (m ((c : Thread nD τ).loc main_arg5))
        (m ((c : Thread nD τ).loc main_arg1)) (m ((c : Thread nD τ).loc main_arg0)) (i 0) (i 1))
      * m ((c : Thread nD τ).loc main_arg1) i)
    (m ((c : Thread nD τ).loc main_arg0))
    (ws_state_block m c t) (ws_input_block m c t) (bs_block m c t)
    (fun k => by
      show Ideal.logistic (preB (wB m c t 2) (wB m c t 3) (bB m c t 1) (sB m c t) (xB m c t) p k) * sB m c t (ix2 p k) = _
      rw [hr k, s_block])
    (x_block m c t p)
  rw [hz, hs, s_block]
  rfl

/-- An index of the result array is in point t's block iff each coordinate is in the block's range on its axis. -/
theorem mem_block (t : Fin cfg0.N) (i : S131072x128.Idx) :
    i ∈ ((cfg0.win 11).blk t).view.set ↔ ∀ a : Fin 2, win0_11.index t a * S2048x128.size a ≤ (i a).val
      ∧ (i a).val < win0_11.index t a * S2048x128.size a + S2048x128.size a := by
  show i ∈ ((View.whole main_v6).slice (win0_11.rect t)).set ↔ _
  rw [View.set_slice_whole, Rect.mem_set_unit]
  exact Iff.rfl

/-- The 64 blocks tile the array: row r lies in the block of point r / 2048. -/
theorem cover (i : S131072x128.Idx) :
    ∃ t : Fin cfg0.N, (cfg0.win 11).flush t = true ∧ i ∈ ((cfg0.win 11).blk t).view.set := by
  have hi0 : (i 0).val < 131072 := (i 0).isLt
  have hi1 : (i 1).val < 128 := (i 1).isLt
  have hq : (i 0).val / 2048 < 64 := by omega
  refine ⟨⟨(i 0).val / 2048, hq⟩, flush0_11 _, ?_⟩
  rw [mem_block]
  have h := idx_facts ⟨(i 0).val / 2048, hq⟩
  intro a
  match a with
  | ⟨0, _⟩ =>
    show win0_11.index ⟨(i 0).val / 2048, hq⟩ (0 : Fin 2) * 2048 ≤ (i 0).val
      ∧ (i 0).val < win0_11.index ⟨(i 0).val / 2048, hq⟩ (0 : Fin 2) * 2048 + 2048
    have e : win0_11.index ⟨(i 0).val / 2048, hq⟩ (0 : Fin 2) = (i 0).val / 2048 := h.2.2.2.2.1
    omega
  | ⟨1, _⟩ =>
    show win0_11.index ⟨(i 0).val / 2048, hq⟩ (1 : Fin 2) * 128 ≤ (i 1).val
      ∧ (i 1).val < win0_11.index ⟨(i 0).val / 2048, hq⟩ (1 : Fin 2) * 128 + 128
    have e : win0_11.index ⟨(i 0).val / 2048, hq⟩ (1 : Fin 2) = 0 := h.2.2.2.2.2.1
    omega

/-- The result array after the run is `result`. -/
theorem final (c : Dev nD) : (dats m 0 c).arrAt 11 cfg0.N = result m c :=
  (dats m 0 c).arrAt_eq_of_cover 11 (result m c) (fun t _ => flushed_eq m c t) (cover)

/-- Every weakly fair execution of the kernel ends with the result array at `result` and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.Gru.Kernel

end
-- ==== Proof.lean ====
/-
  A gated recurrent cell, computed by a tiled kernel, against its plain definition.

  Both programs take a batch of 131072 rows `x` and previous states `s` (128 entries each), three 256 x 128 weights
  and three biases, and return the new state

      z   = sigma ([s, x] W_z + b_z)
      rr  = sigma ([s, x] W_r + b_r)
      h   = tanh  ([rr * s, x] W_s + b_s)
      out = (1 - z) * s + z * h,          sigma t = 1 / (1 + exp (-t)).

  The reference joins the two operands into rows of 256 entries and multiplies by the whole weight. The kernel never
  forms the joined row: it cuts each weight into its first and last 128 rows and adds two products, 2048 rows of the
  batch at a time. On the extended reals the two agree because a sum over 256 indices is the sum over the first 128
  plus the sum over the last 128, the conversions to a narrower float format are the identity, and the one-operation
  logistic function is the reference's spelled-out `1 / (1 + exp (-t))`. No finiteness of the inputs is used: nothing
  is cancelled or distributed.

  The kernel's idealization rewrote no operation, so that claim is trivially true. The frames of the two kernel
  programs are the generated ones; the reference's frame is its run with the result forgotten.
-/
import proofs.«145026_j20203526160650_1_alg».proof.Defs
import proofs.«145026_j20203526160650_1_alg».proof.Proof.Gen.Kernel
import proofs.«145026_j20203526160650_1_alg».proof.Proof.Gen.Kernel.Skeleton
import proofs.«145026_j20203526160650_1_alg».proof.Proof.Gen.Kernel.Launch
import proofs.«145026_j20203526160650_1_alg».proof.Proof.Gen.Kernel.Points
import proofs.«145026_j20203526160650_1_alg».proof.Proof.Gen.Kernel.Frame
import proofs.«145026_j20203526160650_1_alg».proof.Proof.Gen.KernelIdeal
import proofs.«145026_j20203526160650_1_alg».proof.Proof.Gen.KernelIdeal.Skeleton
import proofs.«145026_j20203526160650_1_alg».proof.Proof.Gen.KernelIdeal.Launch
import proofs.«145026_j20203526160650_1_alg».proof.Proof.Gen.KernelIdeal.Points
import proofs.«145026_j20203526160650_1_alg».proof.Proof.Gen.KernelIdeal.Frame
import proofs.«145026_j20203526160650_1_alg».proof.Proof.Gen.ReferenceIdeal
import proofs.«145026_j20203526160650_1_alg».proof.Proof.Gen.Pre_finite_inputs
import proofs.«145026_j20203526160650_1_alg».proof.Proof.Gen.KernelIdeal.Value
import proofs.«145026_j20203526160650_1_alg».proof.Proof.ReferenceRun
import proofs.«145026_j20203526160650_1_alg».proof.Proof.ReferenceRead
import proofs.«145026_j20203526160650_1_alg».proof.Proof.RefIsCell
import proofs.«145026_j20203526160650_1_alg».proof.Proof.KernelArray
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RunPatched.run (F := Ideal) m ρ)

/-- From memories that agree on the eight arguments, the kernel's result array and the reference's are both `cell`
    of those arguments, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gru.Kernel.result m c, Cert.Gru.Kernel.run m ρ, ?_⟩
  refine (θ_run Cert.ReferenceIdeal.defs _ _).mono (fun _ h c => ⟨(h c).1.trans ?_, (h c).2⟩)
    (Cert.ReferenceIdeal.RunPatched.run (F := Ideal) m' ρ')
  obtain ⟨h0, h1, h2, h3, h4, h5, h6, h7⟩ := hagree c
  rw [Cert.ReferenceIdeal.ReadPatched.val_main_v32_eq, Cert.Gru.Reference.result_is_cell, h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
